-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S64x128 : S_.BroadcastsInDim S64x128 (![] : Fin 0 → Fin S64x128.rank)
  reducesTo_S64x128_S_d0_1 : S64x128.ReducesTo [0, 1] S_

variable [Facts]

def fn_part1 {F : FTy → Type} [FloatOps F] (main_v13 : IVec S_ 1) (main_v16 : IVec S64x128 1) : IVec S_ 1 :=
  let main_c_5 : IVec S_ 1 := constantI S_ 1 1#1
  let main_v17 : IVec S_ 1 := (fun x v => Host.reduce IntOp.andi x v reducesTo_S64x128_S_d0_1 h_S_) main_v16 main_c_5
  let main_v18 : IVec S_ 1 := andi main_v13 main_v17
  main_v18

def fn {F : FTy → Type} [FloatOps F] (main_arg0 : FVec F S50000x128 .f32) (main_arg1 : IVec S2x800000 32) (main_arg2 : FVec F S128x128 .f32) (main_arg3 : FVec F S128x128 .f32) (main_arg4 : FVec F S64x128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S64x128 .f32 := Host.absf main_arg4
  let main_cst_4 : FVec F S_ .f32 := constant S_ .f32 0x7F800000#32
  let main_v15 : FVec F S64x128 .f32 := broadcastInDim S64x128 ![] bcast_S_S64x128 main_cst_4
  let main_v16 : IVec S64x128 1 := cmpf .olt main_v14 main_v15
  fn_part1 (F := F) main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S2000x128 : Shape := ⟨2, ![2000, 128]⟩
abbrev S2000x1 : Shape := ⟨2, ![2000, 1]⟩
abbrev S50000x64 : Shape := ⟨2, ![50000, 64]⟩
abbrev S2000x64 : Shape := ⟨2, ![2000, 64]⟩
abbrev S128x64 : Shape := ⟨2, ![128, 64]⟩

abbrev nBuf : Space → Nat
  | .hbm => 67
  | .vmem => 21
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S64x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S50000x1, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x128, .f32⟩
  | .hbm, ⟨31, _⟩ => ⟨S_, .f32⟩
  | .hbm, ⟨32, _⟩ => ⟨S50000x128, .f32⟩
  | .hbm, ⟨33, _⟩ => ⟨S800000x1, .i32⟩
  | .hbm, ⟨34, _⟩ => ⟨S50000x128, .f32⟩
  | .hbm, ⟨35, _⟩ => ⟨S50000x128, .f32⟩
  | .hbm, ⟨36, _⟩ => ⟨S50000x128, .f32⟩
  | .hbm, ⟨37, _⟩ => ⟨S_, .i32⟩
  | .hbm, ⟨38, _⟩ => ⟨S800000, .i32⟩
  | .hbm, ⟨39, _⟩ => ⟨S800000, .i1⟩
  | .hbm, ⟨40, _⟩ => ⟨S_, .i32⟩
  | .hbm, ⟨41, _⟩ => ⟨S800000, .i32⟩
  | .hbm, ⟨42, _⟩ => ⟨S800000, .i32⟩
  | .hbm, ⟨43, _⟩ => ⟨S800000, .i32⟩
  | .hbm, ⟨44, _⟩ => ⟨S800000x1, .i32⟩
  | .hbm, ⟨45, _⟩ => ⟨S800000x128, .f32⟩
  | .hbm, ⟨46, _⟩ => ⟨S_, .f32⟩
  | .hbm, ⟨47, _⟩ => ⟨S50000x128, .f32⟩
  | .hbm, ⟨48, _⟩ => ⟨S800000x1, .i32⟩
  | .hbm, ⟨49, _⟩ => ⟨S50000x128, .f32⟩
  | .hbm, ⟨50, _⟩ => ⟨S50000x128, .f32⟩
  | .hbm, ⟨51, _⟩ => ⟨S50000x128, .f32⟩
  | .hbm, ⟨52, _⟩ => ⟨S_, .i32⟩
  | .hbm, ⟨53, _⟩ => ⟨S800000, .i32⟩
  | .hbm, ⟨54, _⟩ => ⟨S800000, .i1⟩
  | .hbm, ⟨55, _⟩ => ⟨S_, .i32⟩
  | .hbm, ⟨56, _⟩ => ⟨S800000, .i32⟩
  | .hbm, ⟨57, _⟩ => ⟨S800000, .i32⟩
  | .hbm, ⟨58, _⟩ => ⟨S800000, .i32⟩
  | .hbm, ⟨59, _⟩ => ⟨S800000x1, .i32⟩
  | .hbm, ⟨60, _⟩ => ⟨S800000x128, .f32⟩
  | .hbm, ⟨61, _⟩ => ⟨S_, .f32⟩
  | .hbm, ⟨62, _⟩ => ⟨S50000x128, .f32⟩
  | .hbm, ⟨63, _⟩ => ⟨S800000x1, .i32⟩
  | .hbm, ⟨64, _⟩ => ⟨S50000x128, .f32⟩
  | .hbm, ⟨65, _⟩ => ⟨S50000x128, .f32⟩
  | .hbm, ⟨66, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S128x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S64x128, .f32⟩
  | .local _ .vmem, ⟨19, _⟩ => ⟨S2000x64, .f32⟩
  | .local _ .vmem, ⟨20, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_c : Ref sig .tc := ⟨.hbm, 22, rfl⟩
abbrev main_v13 : Ref sig .tc := ⟨.hbm, 23, rfl⟩
abbrev main_v14 : Ref sig .tc := ⟨.hbm, 24, rfl⟩
abbrev main_c_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_8 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S50000x1.size a
  hwx0_1 : ∀ i : grid0.Coords, EltTy.bits .f32 = 32 ∨ (Rect.block (s := S50000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .f32 = 32 ∨ (Rect.block (s := S50000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v23) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v24) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v35) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v36) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v47) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v12) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg4) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v48) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S800000x128 : Shape := ⟨2, ![800000, 128]⟩
abbrev S50000x1 : Shape := ⟨2, ![50000, 1]⟩
abbrev S128x64 : Shape := ⟨2, ![128, 64]⟩
abbrev S50000x64 : Shape := ⟨2, ![50000, 64]⟩

abbrev nBuf : Space → Nat
  | .hbm => 87
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128x128, .f32⟩
  | .hbm, ⟨4, _⟩ => ⟨S64x128, .f32⟩
  | .hbm, ⟨5, _⟩ => ⟨S1x800000, .i32⟩
  | .hbm, ⟨6, _⟩ => ⟨S800000, .i32⟩
  | .hbm, ⟨7, _⟩ => ⟨S1x800000, .i32⟩
  | .hbm, ⟨8, _⟩ => ⟨S800000, .i32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .i32⟩
  | .hbm, ⟨22, _⟩ => ⟨S800000, .i32⟩
  | .hbm, ⟨23, _⟩ => ⟨S800000, .i1⟩
  | .hbm, ⟨24, _⟩ => ⟨S_, .i32⟩
  | .hbm, ⟨25, _⟩ => ⟨S800000, .i32⟩
  | .hbm, ⟨26, _⟩ => ⟨S800000, .i32⟩
  | .hbm, ⟨27, _⟩ => ⟨S800000, .i32⟩
  | .hbm, ⟨28, _⟩ => ⟨S800000x1, .i32⟩
  | .hbm, ⟨29, _⟩ => ⟨S800000x128, .f32⟩
  | .hbm, ⟨30, _⟩ => ⟨S_, .f32⟩
  | .hbm, ⟨31, _⟩ => ⟨S50000x128, .f32⟩
  | .hbm, ⟨32, _⟩ => ⟨S800000x1, .i32⟩
  | .hbm, ⟨33, _⟩ => ⟨S50000x128, .f32⟩
  | .hbm, ⟨34, _⟩ => ⟨S50000x128, .f32⟩
  | .hbm, ⟨35, _⟩ => ⟨S50000x1, .f32⟩
  | .hbm, ⟨36, _⟩ => ⟨S50000x128, .f32⟩
  | .hbm, ⟨37, _⟩ => ⟨S50000x128, .f32⟩
  | .hbm, ⟨38, _⟩ => ⟨S128x128, .f32⟩
  | .hbm, ⟨39, _⟩ => ⟨S50000x128, .f32⟩
  | .hbm, ⟨40, _⟩ => ⟨S_, .f32⟩
  | .hbm, ⟨41, _⟩ => ⟨S50000x128, .f32⟩
  | .hbm, ⟨42, _⟩ => ⟨S50000x128, .f32⟩
  | .hbm, ⟨43, _⟩ => ⟨S_, .i32⟩
  | .hbm, ⟨44, _⟩ => ⟨S800000, .i32⟩
  | .hbm, ⟨45, _⟩ => ⟨S800000, .i1⟩
  | .hbm, ⟨46, _⟩ => ⟨S_, .i32⟩
  | .hbm, ⟨47, _⟩ => ⟨S800000, .i32⟩
  | .hbm, ⟨48, _⟩ => ⟨S800000, .i32⟩
  | .hbm, ⟨49, _⟩ => ⟨S800000, .i32⟩
  | .hbm, ⟨50, _⟩ => ⟨S800000x1, .i32⟩
  | .hbm, ⟨51, _⟩ => ⟨S800000x128, .f32⟩
  | .hbm, ⟨52, _⟩ => ⟨S_, .f32⟩
  | .hbm, ⟨53, _⟩ => ⟨S50000x128, .f32⟩
  | .hbm, ⟨54, _⟩ => ⟨S800000x1, .i32⟩
  | .hbm, ⟨55, _⟩ => ⟨S50000x128, .f32⟩
  | .hbm, ⟨56, _⟩ => ⟨S50000x128, .f32⟩
  | .hbm, ⟨57, _⟩ => ⟨S50000x1, .f32⟩
  | .hbm, ⟨58, _⟩ => ⟨S50000x128, .f32⟩
  | .hbm, ⟨59, _⟩ => ⟨S50000x128, .f32⟩
  | .hbm, ⟨60, _⟩ => ⟨S128x128, .f32⟩
  | .hbm, ⟨61, _⟩ => ⟨S50000x128, .f32⟩
  | .hbm, ⟨62, _⟩ => ⟨S_, .f32⟩
  | .hbm, ⟨63, _⟩ => ⟨S50000x128, .f32⟩
  | .hbm, ⟨64, _⟩ => ⟨S50000x128, .f32⟩
  | .hbm, ⟨65, _⟩ => ⟨S_, .i32⟩
  | .hbm, ⟨66, _⟩ => ⟨S800000, .i32⟩
  | .hbm, ⟨67, _⟩ => ⟨S800000, .i1⟩
  | .hbm, ⟨68, _⟩ => ⟨S_, .i32⟩
  | .hbm, ⟨69, _⟩ => ⟨S800000, .i32⟩
  | .hbm, ⟨70, _⟩ => ⟨S800000, .i32⟩
  | .hbm, ⟨71, _⟩ => ⟨S800000, .i32⟩
  | .hbm, ⟨72, _⟩ => ⟨S800000x1, .i32⟩
  | .hbm, ⟨73, _⟩ => ⟨S800000x128, .f32⟩
  | .hbm, ⟨74, _⟩ => ⟨S_, .f32⟩
  | .hbm, ⟨75, _⟩ => ⟨S50000x128, .f32⟩
  | .hbm, ⟨76, _⟩ => ⟨S800000x1, .i32⟩
  | .hbm, ⟨77, _⟩ => ⟨S50000x128, .f32⟩
  | .hbm, ⟨78, _⟩ => ⟨S50000x128, .f32⟩
  | .hbm, ⟨79, _⟩ => ⟨S50000x1, .f32⟩
  | .hbm, ⟨80, _⟩ => ⟨S50000x128, .f32⟩
  | .hbm, ⟨81, _⟩ => ⟨S50000x128, .f32⟩
  | .hbm, ⟨82, _⟩ => ⟨S128x64, .f32⟩
  | .hbm, ⟨83, _⟩ => ⟨S50000x64, .f32⟩
  | .hbm, ⟨84, _⟩ => ⟨S_, .f32⟩
  | .hbm, ⟨85, _⟩ => ⟨S50000x64, .f32⟩
  | .hbm, ⟨86, _⟩ => ⟨S50000x64, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_cst_2 : Ref sig .tc := ⟨.hbm, 18, rfl⟩
abbrev main_v10 : Ref sig .tc := ⟨.hbm, 19, rfl⟩
abbrev main_v11 : Ref sig .tc := ⟨.hbm, 20, rfl⟩
abbrev main_c : Ref sig .tc := ⟨.hbm, 21, rfl⟩
abbrev main_v12 : Ref sig .tc := ⟨.hbm, 22, rfl⟩
abbrev main_v13 : Ref sig .tc := ⟨.hbm, 23, rfl⟩
abbrev main_c_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩
abbrev main_c_5 : Ref sig .tc := ⟨.hbm, 43, rfl⟩
abbrev main_v29 : Ref sig .tc := ⟨.hbm, 44, rfl⟩
abbrev main_v30 : Ref sig .tc := ⟨.hbm, 45, rfl⟩
abbrev main_c_6 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_call1_cst : Ref sig .tc := ⟨.hbm, 62, rfl⟩
abbrev main_call1_v0 : Ref sig .tc := ⟨.hbm, 63, rfl⟩
abbrev main_v45 : Ref sig .tc := ⟨.hbm, 64, rfl⟩
abbrev main_c_8 : Ref sig .tc := ⟨.hbm, 65, rfl⟩
abbrev main_v46 : Ref sig .tc := ⟨.hbm, 66, rfl⟩
abbrev main_v47 : Ref sig .tc := ⟨.hbm, 67, rfl⟩
abbrev main_c_9 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_10 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_call2_cst : Ref sig .tc := ⟨.hbm, 84, rfl⟩
abbrev main_call2_v0 : Ref sig .tc := ⟨.hbm, 85, rfl⟩
abbrev main_v62 : Ref sig .tc := ⟨.hbm, 86, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  transposes_S64x128_S128x64_1_0 : S64x128.Transposes [1, 0] S128x64
  bcast_S_S50000x64 : S_.BroadcastsInDim S50000x64 (![] : Fin 0 → Fin S50000x64.rank)
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.Host.lean ====
/-
  The host side of one GraphSAGE layer, shared word for word by the kernel's program and the reference: the edge list's
  two rows, the neighbour aggregation `agg h = segment_sum (h[src], dst) + h` (a gather of the source rows, negative
  indices wrapped once, scatter-added at the destination rows onto zeros, plus the node's own row), and the column of
  normalisers `1 / (in_degree + 1)`. They are carried as opaque functions: both programs apply the same operations to
  the same arrays, so nothing about gathers or scatters is ever opened.
-/
import proofs.«127142_j53704271069553_1_alg».proof.Proof.Gen.KernelIdeal

noncomputable section

namespace Cert.Sage

open Cert.KernelIdeal Cert.KernelIdeal.Gen Idealize.ShloMosaic

variable {F : FTy → Type} [FloatOps F]

/-- Row 0 of the edge list: each edge's source node. -/
def srcRow (e : (⟨S2x800000, .i32⟩ : BufTy).Contents (Elt F)) : (⟨S800000, .i32⟩ : BufTy).Contents (Elt F) :=
  shapeCast _ (extractStridedSlice S1x800000 ![0, 0] e slices_S2x800000_S1x800000_0_0) shapeCasts_S1x800000_S800000

/-- Row 1 of the edge list: each edge's destination node. -/
def dstRow (e : (⟨S2x800000, .i32⟩ : BufTy).Contents (Elt F)) : (⟨S800000, .i32⟩ : BufTy).Contents (Elt F) :=
  shapeCast _ (extractStridedSlice S1x800000 ![1, 0] e slices_S2x800000_S1x800000_1_0) shapeCasts_S1x800000_S800000

/-- `segment_sum (h[src], dst, n) + h`: every node's row plus the rows of its in-neighbours. -/
def agg (h : (⟨S50000x128, .f32⟩ : BufTy).Contents (Elt F)) (s d : (⟨S800000, .i32⟩ : BufTy).Contents (Elt F)) :
    (⟨S50000x128, .f32⟩ : BufTy).Contents (Elt F) :=
  addf (Host.scatterAdd scatter_S50000x128_S800000x1_S800000x128_1_0_0_1
      (broadcastInDim S50000x128 ![] bcast_S_S50000x128 (constant S_ .f32 0x00000000#32))
      (broadcastInDim S800000x1 ![0] bcast_S800000_S800000x1_0 d)
      (Host.gather gather_S50000x128_S800000x1_S800000x128_1_0_n_n_0_1_1128 h
        (broadcastInDim S800000x1 ![0] bcast_S800000_S800000x1_0
          (select (cmpi .slt s (broadcastInDim S800000 ![] bcast_S_S800000 (constantI S_ 32 0#32)))
            (addi s (broadcastInDim S800000 ![] bcast_S_S800000 (constantI S_ 32 50000#32))) s)))) h

/-- `1 / (in_degree + 1)` per node, the in-degree counted by scatter-adding ones at the destinations. -/
def invDeg (d : (⟨S800000, .i32⟩ : BufTy).Contents (Elt F)) : (⟨S50000, .f32⟩ : BufTy).Contents (Elt F) :=
  Host.divf (broadcastInDim S50000 ![] bcast_S_S50000 (constant S_ .f32 0x3F800000#32))
    (addf (Host.scatterAdd scatter_S50000_S800000x1_S800000_n_0_0_1
        (broadcastInDim S50000 ![] bcast_S_S50000 (constant S_ .f32 0x00000000#32))
        (broadcastInDim S800000x1 ![0] bcast_S800000_S800000x1_0 d)
        (broadcastInDim S800000 ![] bcast_S_S800000 (constant S_ .f32 0x3F800000#32)))
      (broadcastInDim S50000 ![] bcast_S_S50000 (constant S_ .f32 0x3F800000#32)))

/-- The normalisers as a column, the form the kernels read them in. -/
def invCol (d : (⟨S800000, .i32⟩ : BufTy).Contents (Elt F)) : (⟨S50000x1, .f32⟩ : BufTy).Contents (Elt F) :=
  shapeCast _ (invDeg d) shapeCasts_S50000_S50000x1

end Cert.Sage

end
-- ==== Proof.Payload0.lean ====
/-
  The body of the first layer's kernel, read at an element. At the extended reals the two changes of float format are
  the identity, the transposed weight block read at `(k, c)` is the weight block at `(c, k)`, the normaliser column
  broadcast along a row is that row's normaliser, and the matrix unit's product into a zero accumulator is the plain sum
  over the contracted axis. So the stored block holds, at row `p` and column `q`,

      max (∑ k, (x (p, k) · s (p, 0)) · w (q, k)) 0

  of the loaded feature block `x`, normaliser block `s` and weight block `w`.
-/
import proofs.«127142_j53704271069553_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay0

open Cert.KernelIdeal Cert.KernelIdeal.Gen Idealize.ShloMosaic Idealize.ShloMosaic.ValueIdx

/-! ## The matrix product's operand indices, axis by axis -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a scaled feature block with a transposed weight block into the zero accumulator, at `(p, q)`:
    the sum over the feature axis `k` of the left block at `(p, k)` times the right block at `(k, q)`. -/
theorem matmul_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The stored block at row `p`, column `q`. -/
theorem pay_apply (x0 : Vec Ideal S2000x128 .f32) (x1 : Vec Ideal S2000x1 .f32) (x2 : Vec Ideal S128x128 .f32) (p : Fin 2000) (q : Fin 128) :
    k0_pay1 (F := Ideal) x0 x1 x2 (ix2 p q) = max (∑ k : Fin 128, (x0 (ix2 p k) * x1 (ix2 p (0 : Fin 1))) * x2 (ix2 q k)) 0 := by
  unfold k0_pay1
  dsimp only
  rw [maximumf_apply, broadcast_apply, matmul_apply]
  rw [show (FloatOps.ofBits (F := Ideal) .f32 0x00000000#32 : Ideal .f32) = 0 from Ideal.ofBits_zero_f32]
  congr 1
  refine Finset.sum_congr rfl fun k _ => ?_
  rw [truncf_apply, mulf_apply, shapeCast_self,
    broadcastTo_apply (shapeCast S2000x1 x1 shapeCasts_S2000x1_S2000x1) broadcasts_S2000x1_S2000x128 (ix2 p k) (ix2 p (0 : Fin 1))
      (fun a => match a with
        | ⟨0, _⟩ => by show p.val = if (2000 : Nat) = 1 then 0 else p.val; rw [if_neg (by decide)]
        | ⟨1, _⟩ => by show 0 = if (1 : Nat) = 1 then 0 else k.val; rw [if_pos rfl]),
    shapeCast_self,
    transpose_apply [1, 0] (truncf (F := Ideal) .bf16 x2 bitsLt_bf16_f32) transposes_S128x128_p1_0_S128x128 (ix2 k q) (ix2 q k)
      (fun b => match b with
        | ⟨0, _⟩ => rfl
        | ⟨1, _⟩ => rfl),
    truncf_apply]

end Cert.KernelIdeal.Pay0

end
-- ==== Proof.Layer.lean ====
/-
  One GraphSAGE layer with the mean ("gcn") aggregator already folded into its input, as a function on the
  extended reals: for an aggregated feature matrix `A` (one row per node), the column `inv` of reciprocal
  degree normalisers and a weight matrix `W` (one row per output feature),

      layer A inv W (r, c) = max (∑ k, (A (r, k) · inv (r, 0)) · W (c, k)) 0,

  that is `relu ((A ⊙ inv) · Wᵀ)`. Both programs compute this function three times, once per layer; nothing
  here depends on either program.
-/
import Idealize.ShloMosaic.PureOps.Ideal.Laws
import Idealize.ShloMosaic.Lib.ValueIdx

noncomputable section

namespace Cert.Sage

open Idealize.ShloMosaic Idealize.ShloMosaic.ValueIdx

/-- `relu ((A ⊙ inv) · Wᵀ)` read at the output index `(r, c)`: the row `r` of `A`, scaled by the node's
    normaliser, against the row `c` of `W`, clamped below at zero. -/
def layer (n d o : Nat) (A : (⟨2, ![n, d]⟩ : Shape).Idx → EReal) (inv : (⟨2, ![n, 1]⟩ : Shape).Idx → EReal)
    (W : (⟨2, ![o, d]⟩ : Shape).Idx → EReal) : (⟨2, ![n, o]⟩ : Shape).Idx → EReal :=
  fun i => max (∑ k : Fin d, (A (ix2 (i 0 : Fin n) k) * inv (ix2 (i 0 : Fin n) (0 : Fin 1))) * W (ix2 (i 1 : Fin o) k)) 0

/-- The layer at explicit coordinates. -/
theorem layer_ix2 (n d o : Nat) (A : (⟨2, ![n, d]⟩ : Shape).Idx → EReal) (inv : (⟨2, ![n, 1]⟩ : Shape).Idx → EReal)
    (W : (⟨2, ![o, d]⟩ : Shape).Idx → EReal) (r : Fin n) (c : Fin o) :
    layer n d o A inv W (ix2 r c) = max (∑ k : Fin d, (A (ix2 r k) * inv (ix2 r (0 : Fin 1))) * W (ix2 c k)) 0 := rfl

end Cert.Sage

end
-- ==== Proof.Region0.lean ====
/-
  The first layer's pallas_call as one whole-array function. Grid point `t` of 25 works on node rows
  `2000·t … 2000·t + 1999`: it reads those rows of the aggregated features and of the normaliser column and the whole
  weight matrix, and writes back those rows of the result. Each written block is the corresponding block of
  `layer A inv W` (the block's row `p` is the array's row `2000·t + p`; the columns and the weight block are not cut), and
  the 25 blocks tile the 50000 rows, so after the region the result array is `layer A inv W` of the arrays the region
  found, whatever they hold.
-/
import proofs.«127142_j53704271069553_1_alg».proof.Proof.Gen.KernelIdeal.Frame
import proofs.«127142_j53704271069553_1_alg».proof.Proof.Payload0
import proofs.«127142_j53704271069553_1_alg».proof.Proof.Layer
import Idealize.ShloMosaic.Lib.Pipeline.Value

set_option maxRecDepth 16384

noncomputable section

namespace Cert.KernelIdeal.Reg0

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev feats (c : Dev nD) : Vec Ideal S50000x128 .f32 := V c main_v23
abbrev norms (c : Dev nD) : Vec Ideal S50000x1 .f32 := V c main_v12
abbrev weights (c : Dev nD) : Vec Ideal S128x128 .f32 := V c main_arg2

/-- The printed index maps over the grid: the row windows sit at block `t`, the weight window at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 ∧ t.val < 25 :=
  (by decide +kernel : ∀ t : Fin grid0.N, _)

/-- The feature window's block at point `t` holds rows `2000·t …` of the feature array. -/
theorem feats_blk (c : Dev nD) (t : Fin cfg0.N) (p : Fin 2000) (k : Fin 128) (r : Fin 50000) (hr : r.val = 2000 * t.val + p.val) :
    (iblk0 V c 0 t : Vec Ideal S2000x128 .f32) (ix2 p k) = feats V c (ix2 r k) := by
  obtain ⟨e00, e01, -⟩ := idx_facts t
  unfold iblk0
  rw [View.read_apply]
  show V c main_v23 _ = V c main_v23 _
  congr 1
  funext a
  apply Fin.ext
  match a with
  | ⟨0, _⟩ => show win0_0.index t 0 * 2000 + 1 * p.val = r.val; rw [e00, hr]; omega
  | ⟨1, _⟩ => show win0_0.index t 1 * 128 + 1 * k.val = k.val; rw [e01]; omega

/-- The normaliser window's block at point `t` holds rows `2000·t …` of the normaliser column. -/
theorem norms_blk (c : Dev nD) (t : Fin cfg0.N) (p : Fin 2000) (r : Fin 50000) (hr : r.val = 2000 * t.val + p.val) :
    (iblk0 V c 1 t : Vec Ideal S2000x1 .f32) (ix2 p (0 : Fin 1)) = norms V c (ix2 r (0 : Fin 1)) := by
  obtain ⟨-, -, e10, e11, -⟩ := idx_facts t
  unfold iblk0
  rw [View.read_apply]
  show V c main_v12 _ = V c main_v12 _
  congr 1
  funext a
  apply Fin.ext
  match a with
  | ⟨0, _⟩ => show win0_1.index t 0 * 2000 + 1 * p.val = r.val; rw [e10, hr]; omega
  | ⟨1, _⟩ => show win0_1.index t 1 * 1 + 1 * 0 = 0; rw [e11]

/-- The weight window's one block is the whole weight matrix. -/
theorem weights_blk (c : Dev nD) (t : Fin cfg0.N) (q k : Fin 128) :
    (iblk0 V c 2 t : Vec Ideal S128x128 .f32) (ix2 q k) = weights V c (ix2 q k) := by
  obtain ⟨-, -, -, -, e20, e21, -⟩ := idx_facts t
  unfold iblk0
  rw [View.read_apply]
  show V c main_arg2 _ = V c main_arg2 _
  congr 1
  funext a
  apply Fin.ext
  match a with
  | ⟨0, _⟩ => show win0_2.index t 0 * 128 + 1 * q.val = q.val; rw [e20]; omega
  | ⟨1, _⟩ => show win0_2.index t 1 * 128 + 1 * k.val = k.val; rw [e21]; omega

/-- WHAT POINT `t` WRITES BACK is block `t` of the layer function of the arrays as the region finds them. -/
theorem flushed_eq (c : Dev nD) (t : Fin cfg0.N) :
    (dat0 V c).flushed 3 t = ((cfg0.win 3).blk t).view.read (Elt Ideal) (layer 50000 128 128 (feats V c) (norms V c) (weights V c)) := by
  show (cfg0.win 3).cut (grid0.coords t) ((dat0 V c).after 3 t) = _
  rw [after0_3]
  unfold out0_3
  rw [View.canon_unit_zero hz]
  simp only [View.ld_unit_zero (S := S2000x128) hz, View.ld_unit_zero (S := S2000x1) hz, View.ld_unit_zero (S := S128x128) hz]
  obtain ⟨e00, e01, e10, e11, e20, e21, e30, e31, ht⟩ := idx_facts t
  funext j
  obtain ⟨p, q, rfl⟩ : ∃ (p : Fin 2000) (q : Fin 128), j = ix2 p q := ⟨j 0, j 1, eq_ix2 j⟩
  have hr : 2000 * t.val + p.val < 50000 := by have := p.isLt; omega
  show k0_pay1 (iblk0 V c 0 t) (iblk0 V c 1 t) (iblk0 V c 2 t) (ix2 p q)
    = layer 50000 128 128 (feats V c) (norms V c) (weights V c) (((cfg0.win 3).blk t).view.emb (ix2 p q))
  have hemb : ((cfg0.win 3).blk t).view.emb (ix2 p q) = ix2 (⟨2000 * t.val + p.val, hr⟩ : Fin 50000) q := by
    funext a
    apply Fin.ext
    match a with
    | ⟨0, _⟩ => show win0_3.index t 0 * 2000 + 1 * p.val = 2000 * t.val + p.val; rw [e30]; omega
    | ⟨1, _⟩ => show win0_3.index t 1 * 128 + 1 * q.val = q.val; rw [e31]; omega
  rw [hemb, layer_ix2]
  refine (Pay0.pay_apply (iblk0 V c 0 t) (iblk0 V c 1 t) (iblk0 V c 2 t) p q).trans ?_
  congr 1
  refine Finset.sum_congr rfl fun k _ => ?_
  rw [feats_blk V c t p k ⟨2000 * t.val + p.val, hr⟩ rfl, norms_blk V c t p ⟨2000 * t.val + p.val, hr⟩ rfl, weights_blk V c t q k]

/-- An index of the result array is in point `t`'s block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v24).slice (win0_3.rect t)).set ↔ _
  rw [View.set_slice_whole, Rect.mem_set_unit]
  exact Iff.rfl

/-- Every one of the 25 row blocks is some point's. -/
theorem idx_onto : ∀ q0 : Fin 25, ∃ t : Fin cfg0.N, win0_3.index t = ![q0.val, 0] :=
  (by decide +kernel : ∀ q0 : Fin 25, ∃ t : Fin grid0.N, win0_3.index t = ![q0.val, 0])

/-- The written blocks tile the result: row `r` lies in the block of point `r / 2000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- THE RESULT ARRAY after the region: the layer function of the three arrays the region found. -/
theorem final (c : Dev nD) : (dat0 V c).arrAt 3 cfg0.N = layer 50000 128 128 (feats V c) (norms V c) (weights V c) :=
  (dat0 V c).arrAt_eq_of_cover 3 (layer 50000 128 128 (feats V c) (norms V c) (weights V c)) (fun t _ => flushed_eq V c t) cover

end Cert.KernelIdeal.Reg0

end
-- ==== Proof.Payload1.lean ====
/-
  The body of the second layer's kernel, read at an element. At the extended reals the two changes of float format are
  the identity, the transposed weight block read at `(k, c)` is the weight block at `(c, k)`, the normaliser column
  broadcast along a row is that row's normaliser, and the matrix unit's product into a zero accumulator is the plain sum
  over the contracted axis. So the stored block holds, at row `p` and column `q`,

      max (∑ k, (x (p, k) · s (p, 0)) · w (q, k)) 0

  of the loaded feature block `x`, normaliser block `s` and weight block `w`.
-/
import proofs.«127142_j53704271069553_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay1

open Cert.KernelIdeal Cert.KernelIdeal.Gen Idealize.ShloMosaic Idealize.ShloMosaic.ValueIdx

/-! ## The matrix product's operand indices, axis by axis -/

theorem lhs_0 (i : S2000x128.Idx) (q : dot_S2000x128_S128x128_S2000x128_1_0_0_1_n_n.contr.Idx) :
    (dot_S2000x128_S128x128_S2000x128_1_0_0_1_n_n.lhsIdx i q 0).val = (i 0).val := by
  unfold DotDims.lhsIdx
  rw [dif_neg (show ¬(0 : Fin S2000x128.rank) ∈ dot_S2000x128_S128x128_S2000x128_1_0_0_1_n_n.lhsBatch by decide), dif_pos (show (0 : Fin S2000x128.rank) ∈ dot_S2000x128_S128x128_S2000x128_1_0_0_1_n_n.lhsNonContracting by decide)]
  rfl
theorem lhs_1 (i : S2000x128.Idx) (q : dot_S2000x128_S128x128_S2000x128_1_0_0_1_n_n.contr.Idx) :
    (dot_S2000x128_S128x128_S2000x128_1_0_0_1_n_n.lhsIdx i q 1).val = (q ⟨0, by decide⟩).val :=
  dot_S2000x128_S128x128_S2000x128_1_0_0_1_n_n.lhsIdx_val_of_single rfl i q
theorem rhs_0 (i : S2000x128.Idx) (q : dot_S2000x128_S128x128_S2000x128_1_0_0_1_n_n.contr.Idx) :
    (dot_S2000x128_S128x128_S2000x128_1_0_0_1_n_n.rhsIdx i q 0).val = (q ⟨0, by decide⟩).val :=
  dot_S2000x128_S128x128_S2000x128_1_0_0_1_n_n.rhsIdx_val_of_single rfl i q
theorem rhs_1 (i : S2000x128.Idx) (q : dot_S2000x128_S128x128_S2000x128_1_0_0_1_n_n.contr.Idx) :
    (dot_S2000x128_S128x128_S2000x128_1_0_0_1_n_n.rhsIdx i q 1).val = (i 1).val := by
  unfold DotDims.rhsIdx
  rw [dif_neg (show ¬(1 : Fin S128x128.rank) ∈ dot_S2000x128_S128x128_S2000x128_1_0_0_1_n_n.rhsBatch by decide), dif_pos (show (1 : Fin S128x128.rank) ∈ dot_S2000x128_S128x128_S2000x128_1_0_0_1_n_n.rhsNonContracting by decide)]
  rfl

/-- The product of a scaled feature block with a transposed weight block into the zero accumulator, at `(p, q)`:
    the sum over the feature axis `k` of the left block at `(p, k)` times the right block at `(k, q)`. -/
theorem matmul_apply (l : FVec Ideal S2000x128 .bf16) (r : FVec Ideal S128x128 .bf16) (p : Fin 2000) (q : Fin 128) :
    matmul dot_S2000x128_S128x128_S2000x128_1_0_0_1_n_n none l r (constant S2000x128 .f32 0x00000000#32) (ix2 p q)
      = ∑ k : Fin 128, l (ix2 p k) * r (ix2 k q) := by
  simp only [matmul]
  rw [Ideal.matmul_constant_zero_apply, ← Equiv.sum_comp (contrEquiv1 dot_S2000x128_S128x128_S2000x128_1_0_0_1_n_n 128 rfl rfl).symm]
  refine Finset.sum_congr rfl fun k _ => ?_
  have hk := contrEquiv1_symm_val dot_S2000x128_S128x128_S2000x128_1_0_0_1_n_n 128 rfl rfl k
  have el : dot_S2000x128_S128x128_S2000x128_1_0_0_1_n_n.lhsIdx (ix2 p q) ((contrEquiv1 dot_S2000x128_S128x128_S2000x128_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x128_S2000x128_1_0_0_1_n_n.rhsIdx (ix2 p q) ((contrEquiv1 dot_S2000x128_S128x128_S2000x128_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The stored block at row `p`, column `q`. -/
theorem pay_apply (x0 : Vec Ideal S2000x128 .f32) (x1 : Vec Ideal S2000x1 .f32) (x2 : Vec Ideal S128x128 .f32) (p : Fin 2000) (q : Fin 128) :
    k1_pay1 (F := Ideal) x0 x1 x2 (ix2 p q) = max (∑ k : Fin 128, (x0 (ix2 p k) * x1 (ix2 p (0 : Fin 1))) * x2 (ix2 q k)) 0 := by
  unfold k1_pay1
  dsimp only
  rw [maximumf_apply, broadcast_apply, matmul_apply]
  rw [show (FloatOps.ofBits (F := Ideal) .f32 0x00000000#32 : Ideal .f32) = 0 from Ideal.ofBits_zero_f32]
  congr 1
  refine Finset.sum_congr rfl fun k _ => ?_
  rw [truncf_apply, mulf_apply, shapeCast_self,
    broadcastTo_apply (shapeCast S2000x1 x1 shapeCasts_S2000x1_S2000x1) broadcasts_S2000x1_S2000x128 (ix2 p k) (ix2 p (0 : Fin 1))
      (fun a => match a with
        | ⟨0, _⟩ => by show p.val = if (2000 : Nat) = 1 then 0 else p.val; rw [if_neg (by decide)]
        | ⟨1, _⟩ => by show 0 = if (1 : Nat) = 1 then 0 else k.val; rw [if_pos rfl]),
    shapeCast_self,
    transpose_apply [1, 0] (truncf (F := Ideal) .bf16 x2 bitsLt_bf16_f32) transposes_S128x128_p1_0_S128x128 (ix2 k q) (ix2 q k)
      (fun b => match b with
        | ⟨0, _⟩ => rfl
        | ⟨1, _⟩ => rfl),
    truncf_apply]

end Cert.KernelIdeal.Pay1

end
-- ==== Proof.Region1.lean ====
/-
  The second layer's pallas_call as one whole-array function. Grid point `t` of 25 works on node rows
  `2000·t … 2000·t + 1999`: it reads those rows of the aggregated features and of the normaliser column and the whole
  weight matrix, and writes back those rows of the result. Each written block is the corresponding block of
  `layer A inv W` (the block's row `p` is the array's row `2000·t + p`; the columns and the weight block are not cut), and
  the 25 blocks tile the 50000 rows, so after the region the result array is `layer A inv W` of the arrays the region
  found, whatever they hold.
-/
import proofs.«127142_j53704271069553_1_alg».proof.Proof.Gen.KernelIdeal.Frame
import proofs.«127142_j53704271069553_1_alg».proof.Proof.Payload1
import proofs.«127142_j53704271069553_1_alg».proof.Proof.Layer
import Idealize.ShloMosaic.Lib.Pipeline.Value

set_option maxRecDepth 16384

noncomputable section

namespace Cert.KernelIdeal.Reg1

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev feats (c : Dev nD) : Vec Ideal S50000x128 .f32 := V c main_v35
abbrev norms (c : Dev nD) : Vec Ideal S50000x1 .f32 := V c main_v12
abbrev weights (c : Dev nD) : Vec Ideal S128x128 .f32 := V c main_arg3

/-- The printed index maps over the grid: the row windows sit at block `t`, the weight window at block 0. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 25 :=
  (by decide +kernel : ∀ t : Fin grid1.N, _)

/-- The feature window's block at point `t` holds rows `2000·t …` of the feature array. -/
theorem feats_blk (c : Dev nD) (t : Fin cfg1.N) (p : Fin 2000) (k : Fin 128) (r : Fin 50000) (hr : r.val = 2000 * t.val + p.val) :
    (iblk1 V c 0 t : Vec Ideal S2000x128 .f32) (ix2 p k) = feats V c (ix2 r k) := by
  obtain ⟨e00, e01, -⟩ := idx_facts t
  unfold iblk1
  rw [View.read_apply]
  show V c main_v35 _ = V c main_v35 _
  congr 1
  funext a
  apply Fin.ext
  match a with
  | ⟨0, _⟩ => show win1_0.index t 0 * 2000 + 1 * p.val = r.val; rw [e00, hr]; omega
  | ⟨1, _⟩ => show win1_0.index t 1 * 128 + 1 * k.val = k.val; rw [e01]; omega

/-- The normaliser window's block at point `t` holds rows `2000·t …` of the normaliser column. -/
theorem norms_blk (c : Dev nD) (t : Fin cfg1.N) (p : Fin 2000) (r : Fin 50000) (hr : r.val = 2000 * t.val + p.val) :
    (iblk1 V c 1 t : Vec Ideal S2000x1 .f32) (ix2 p (0 : Fin 1)) = norms V c (ix2 r (0 : Fin 1)) := by
  obtain ⟨-, -, e10, e11, -⟩ := idx_facts t
  unfold iblk1
  rw [View.read_apply]
  show V c main_v12 _ = V c main_v12 _
  congr 1
  funext a
  apply Fin.ext
  match a with
  | ⟨0, _⟩ => show win1_1.index t 0 * 2000 + 1 * p.val = r.val; rw [e10, hr]; omega
  | ⟨1, _⟩ => show win1_1.index t 1 * 1 + 1 * 0 = 0; rw [e11]

/-- The weight window's one block is the whole weight matrix. -/
theorem weights_blk (c : Dev nD) (t : Fin cfg1.N) (q k : Fin 128) :
    (iblk1 V c 2 t : Vec Ideal S128x128 .f32) (ix2 q k) = weights V c (ix2 q k) := by
  obtain ⟨-, -, -, -, e20, e21, -⟩ := idx_facts t
  unfold iblk1
  rw [View.read_apply]
  show V c main_arg3 _ = V c main_arg3 _
  congr 1
  funext a
  apply Fin.ext
  match a with
  | ⟨0, _⟩ => show win1_2.index t 0 * 128 + 1 * q.val = q.val; rw [e20]; omega
  | ⟨1, _⟩ => show win1_2.index t 1 * 128 + 1 * k.val = k.val; rw [e21]; omega

/-- WHAT POINT `t` WRITES BACK is block `t` of the layer function of the arrays as the region finds them. -/
theorem flushed_eq (c : Dev nD) (t : Fin cfg1.N) :
    (dat1 V c).flushed 3 t = ((cfg1.win 3).blk t).view.read (Elt Ideal) (layer 50000 128 128 (feats V c) (norms V c) (weights V c)) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz, View.ld_unit_zero (S := S128x128) hz]
  obtain ⟨e00, e01, e10, e11, e20, e21, e30, e31, ht⟩ := idx_facts t
  funext j
  obtain ⟨p, q, rfl⟩ : ∃ (p : Fin 2000) (q : Fin 128), j = ix2 p q := ⟨j 0, j 1, eq_ix2 j⟩
  have hr : 2000 * t.val + p.val < 50000 := by have := p.isLt; omega
  show k1_pay1 (iblk1 V c 0 t) (iblk1 V c 1 t) (iblk1 V c 2 t) (ix2 p q)
    = layer 50000 128 128 (feats V c) (norms V c) (weights V c) (((cfg1.win 3).blk t).view.emb (ix2 p q))
  have hemb : ((cfg1.win 3).blk t).view.emb (ix2 p q) = ix2 (⟨2000 * t.val + p.val, hr⟩ : Fin 50000) q := by
    funext a
    apply Fin.ext
    match a with
    | ⟨0, _⟩ => show win1_3.index t 0 * 2000 + 1 * p.val = 2000 * t.val + p.val; rw [e30]; omega
    | ⟨1, _⟩ => show win1_3.index t 1 * 128 + 1 * q.val = q.val; rw [e31]; omega
  rw [hemb, layer_ix2]
  refine (Pay1.pay_apply (iblk1 V c 0 t) (iblk1 V c 1 t) (iblk1 V c 2 t) p q).trans ?_
  congr 1
  refine Finset.sum_congr rfl fun k _ => ?_
  rw [feats_blk V c t p k ⟨2000 * t.val + p.val, hr⟩ rfl, norms_blk V c t p ⟨2000 * t.val + p.val, hr⟩ rfl, weights_blk V c t q k]

/-- An index of the result array is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v36).slice (win1_3.rect t)).set ↔ _
  rw [View.set_slice_whole, Rect.mem_set_unit]
  exact Iff.rfl

/-- Every one of the 25 row blocks is some point's. -/
theorem idx_onto : ∀ q0 : Fin 25, ∃ t : Fin cfg1.N, win1_3.index t = ![q0.val, 0] :=
  (by decide +kernel : ∀ q0 : Fin 25, ∃ t : Fin grid1.N, win1_3.index t = ![q0.val, 0])

/-- The written blocks tile the result: row `r` lies in the block of point `r / 2000`. -/
theorem cover (i : S50000x128.Idx) : ∃ t : Fin cfg1.N, (cfg1.win 3).flush t = true ∧ i ∈ ((cfg1.win 3).blk t).view.set := by
  have hi0 : (i 0).val < 50000 := (i 0).isLt
  have hi1 : (i 1).val < 128 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- THE RESULT ARRAY after the region: the layer function of the three arrays the region found. -/
theorem final (c : Dev nD) : (dat1 V c).arrAt 3 cfg1.N = layer 50000 128 128 (feats V c) (norms V c) (weights V c) :=
  (dat1 V c).arrAt_eq_of_cover 3 (layer 50000 128 128 (feats V c) (norms V c) (weights V c)) (fun t _ => flushed_eq V c t) cover

end Cert.KernelIdeal.Reg1

end
-- ==== Proof.Payload2.lean ====
/-
  The body of the third layer's kernel, read at an element. At the extended reals the two changes of float format are
  the identity, the transposed weight block read at `(k, c)` is the weight block at `(c, k)`, the normaliser column
  broadcast along a row is that row's normaliser, and the matrix unit's product into a zero accumulator is the plain sum
  over the contracted axis. So the stored block holds, at row `p` and column `q`,

      max (∑ k, (x (p, k) · s (p, 0)) · w (q, k)) 0

  of the loaded feature block `x`, normaliser block `s` and weight block `w`.
-/
import proofs.«127142_j53704271069553_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Pay2

open Cert.KernelIdeal Cert.KernelIdeal.Gen Idealize.ShloMosaic Idealize.ShloMosaic.ValueIdx

/-! ## The matrix product's operand indices, axis by axis -/

theorem lhs_0 (i : S2000x64.Idx) (q : dot_S2000x128_S128x64_S2000x64_1_0_0_1_n_n.contr.Idx) :
    (dot_S2000x128_S128x64_S2000x64_1_0_0_1_n_n.lhsIdx i q 0).val = (i 0).val := by
  unfold DotDims.lhsIdx
  rw [dif_neg (show ¬(0 : Fin S2000x128.rank) ∈ dot_S2000x128_S128x64_S2000x64_1_0_0_1_n_n.lhsBatch by decide), dif_pos (show (0 : Fin S2000x128.rank) ∈ dot_S2000x128_S128x64_S2000x64_1_0_0_1_n_n.lhsNonContracting by decide)]
  rfl
theorem lhs_1 (i : S2000x64.Idx) (q : dot_S2000x128_S128x64_S2000x64_1_0_0_1_n_n.contr.Idx) :
    (dot_S2000x128_S128x64_S2000x64_1_0_0_1_n_n.lhsIdx i q 1).val = (q ⟨0, by decide⟩).val :=
  dot_S2000x128_S128x64_S2000x64_1_0_0_1_n_n.lhsIdx_val_of_single rfl i q
theorem rhs_0 (i : S2000x64.Idx) (q : dot_S2000x128_S128x64_S2000x64_1_0_0_1_n_n.contr.Idx) :
    (dot_S2000x128_S128x64_S2000x64_1_0_0_1_n_n.rhsIdx i q 0).val = (q ⟨0, by decide⟩).val :=
  dot_S2000x128_S128x64_S2000x64_1_0_0_1_n_n.rhsIdx_val_of_single rfl i q
theorem rhs_1 (i : S2000x64.Idx) (q : dot_S2000x128_S128x64_S2000x64_1_0_0_1_n_n.contr.Idx) :
    (dot_S2000x128_S128x64_S2000x64_1_0_0_1_n_n.rhsIdx i q 1).val = (i 1).val := by
  unfold DotDims.rhsIdx
  rw [dif_neg (show ¬(1 : Fin S128x64.rank) ∈ dot_S2000x128_S128x64_S2000x64_1_0_0_1_n_n.rhsBatch by decide), dif_pos (show (1 : Fin S128x64.rank) ∈ dot_S2000x128_S128x64_S2000x64_1_0_0_1_n_n.rhsNonContracting by decide)]
  rfl

/-- The product of a scaled feature block with a transposed weight block into the zero accumulator, at `(p, q)`:
    the sum over the feature axis `k` of the left block at `(p, k)` times the right block at `(k, q)`. -/
theorem matmul_apply (l : FVec Ideal S2000x128 .bf16) (r : FVec Ideal S128x64 .bf16) (p : Fin 2000) (q : Fin 64) :
    matmul dot_S2000x128_S128x64_S2000x64_1_0_0_1_n_n none l r (constant S2000x64 .f32 0x00000000#32) (ix2 p q)
      = ∑ k : Fin 128, l (ix2 p k) * r (ix2 k q) := by
  simp only [matmul]
  rw [Ideal.matmul_constant_zero_apply, ← Equiv.sum_comp (contrEquiv1 dot_S2000x128_S128x64_S2000x64_1_0_0_1_n_n 128 rfl rfl).symm]
  refine Finset.sum_congr rfl fun k _ => ?_
  have hk := contrEquiv1_symm_val dot_S2000x128_S128x64_S2000x64_1_0_0_1_n_n 128 rfl rfl k
  have el : dot_S2000x128_S128x64_S2000x64_1_0_0_1_n_n.lhsIdx (ix2 p q) ((contrEquiv1 dot_S2000x128_S128x64_S2000x64_1_0_0_1_n_n 128 rfl rfl).symm k) = ix2 p k := funext fun a => Fin.ext (by
    match a with
    | ⟨0, _⟩ => exact lhs_0 _ _
    | ⟨1, _⟩ => exact (lhs_1 _ _).trans hk)
  have er : dot_S2000x128_S128x64_S2000x64_1_0_0_1_n_n.rhsIdx (ix2 p q) ((contrEquiv1 dot_S2000x128_S128x64_S2000x64_1_0_0_1_n_n 128 rfl rfl).symm k) = ix2 k q := funext fun a => Fin.ext (by
    match a with
    | ⟨0, _⟩ => exact (rhs_0 _ _).trans hk
    | ⟨1, _⟩ => exact rhs_1 _ _)
  rw [el, er]

/-- The stored block at row `p`, column `q`. -/
theorem pay_apply (x0 : Vec Ideal S2000x128 .f32) (x1 : Vec Ideal S2000x1 .f32) (x2 : Vec Ideal S64x128 .f32) (p : Fin 2000) (q : Fin 64) :
    k2_pay1 (F := Ideal) x0 x1 x2 (ix2 p q) = max (∑ k : Fin 128, (x0 (ix2 p k) * x1 (ix2 p (0 : Fin 1))) * x2 (ix2 q k)) 0 := by
  unfold k2_pay1
  dsimp only
  rw [maximumf_apply, broadcast_apply, matmul_apply]
  rw [show (FloatOps.ofBits (F := Ideal) .f32 0x00000000#32 : Ideal .f32) = 0 from Ideal.ofBits_zero_f32]
  congr 1
  refine Finset.sum_congr rfl fun k _ => ?_
  rw [truncf_apply, mulf_apply, shapeCast_self,
    broadcastTo_apply (shapeCast S2000x1 x1 shapeCasts_S2000x1_S2000x1) broadcasts_S2000x1_S2000x128 (ix2 p k) (ix2 p (0 : Fin 1))
      (fun a => match a with
        | ⟨0, _⟩ => by show p.val = if (2000 : Nat) = 1 then 0 else p.val; rw [if_neg (by decide)]
        | ⟨1, _⟩ => by show 0 = if (1 : Nat) = 1 then 0 else k.val; rw [if_pos rfl]),
    shapeCast_self,
    transpose_apply [1, 0] (truncf (F := Ideal) .bf16 x2 bitsLt_bf16_f32) transposes_S64x128_p1_0_S128x64 (ix2 k q) (ix2 q k)
      (fun b => match b with
        | ⟨0, _⟩ => rfl
        | ⟨1, _⟩ => rfl),
    truncf_apply]

end Cert.KernelIdeal.Pay2

end
-- ==== Proof.Region2.lean ====
/-
  The third layer's pallas_call as one whole-array function. Grid point `t` of 25 works on node rows
  `2000·t … 2000·t + 1999`: it reads those rows of the aggregated features and of the normaliser column and the whole
  weight matrix, and writes back those rows of the result. Each written block is the corresponding block of
  `layer A inv W` (the block's row `p` is the array's row `2000·t + p`; the columns and the weight block are not cut), and
  the 25 blocks tile the 50000 rows, so after the region the result array is `layer A inv W` of the arrays the region
  found, whatever they hold.
-/
import proofs.«127142_j53704271069553_1_alg».proof.Proof.Gen.KernelIdeal.Frame
import proofs.«127142_j53704271069553_1_alg».proof.Proof.Payload2
import proofs.«127142_j53704271069553_1_alg».proof.Proof.Layer
import Idealize.ShloMosaic.Lib.Pipeline.Value

set_option maxRecDepth 16384

noncomputable section

namespace Cert.KernelIdeal.Reg2

open Cert.KernelIdeal Cert.KernelIdeal.Gen Cert.Sage
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The three arrays the region reads, as it finds them, at their literal types. -/
abbrev feats (c : Dev nD) : Vec Ideal S50000x128 .f32 := V c main_v47
abbrev norms (c : Dev nD) : Vec Ideal S50000x1 .f32 := V c main_v12
abbrev weights (c : Dev nD) : Vec Ideal S64x128 .f32 := V c main_arg4

/-- The printed index maps over the grid: the row windows sit at block `t`, the weight window at block 0. -/
theorem idx_facts : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 ∧ t.val < 25 :=
  (by decide +kernel : ∀ t : Fin grid2.N, _)

/-- The feature window's block at point `t` holds rows `2000·t …` of the feature array. -/
theorem feats_blk (c : Dev nD) (t : Fin cfg2.N) (p : Fin 2000) (k : Fin 128) (r : Fin 50000) (hr : r.val = 2000 * t.val + p.val) :
    (iblk2 V c 0 t : Vec Ideal S2000x128 .f32) (ix2 p k) = feats V c (ix2 r k) := by
  obtain ⟨e00, e01, -⟩ := idx_facts t
  unfold iblk2
  rw [View.read_apply]
  show V c main_v47 _ = V c main_v47 _
  congr 1
  funext a
  apply Fin.ext
  match a with
  | ⟨0, _⟩ => show win2_0.index t 0 * 2000 + 1 * p.val = r.val; rw [e00, hr]; omega
  | ⟨1, _⟩ => show win2_0.index t 1 * 128 + 1 * k.val = k.val; rw [e01]; omega

/-- The normaliser window's block at point `t` holds rows `2000·t …` of the normaliser column. -/
theorem norms_blk (c : Dev nD) (t : Fin cfg2.N) (p : Fin 2000) (r : Fin 50000) (hr : r.val = 2000 * t.val + p.val) :
    (iblk2 V c 1 t : Vec Ideal S2000x1 .f32) (ix2 p (0 : Fin 1)) = norms V c (ix2 r (0 : Fin 1)) := by
  obtain ⟨-, -, e10, e11, -⟩ := idx_facts t
  unfold iblk2
  rw [View.read_apply]
  show V c main_v12 _ = V c main_v12 _
  congr 1
  funext a
  apply Fin.ext
  match a with
  | ⟨0, _⟩ => show win2_1.index t 0 * 2000 + 1 * p.val = r.val; rw [e10, hr]; omega
  | ⟨1, _⟩ => show win2_1.index t 1 * 1 + 1 * 0 = 0; rw [e11]

/-- The weight window's one block is the whole weight matrix. -/
theorem weights_blk (c : Dev nD) (t : Fin cfg2.N) (q : Fin 64) (k : Fin 128) :
    (iblk2 V c 2 t : Vec Ideal S64x128 .f32) (ix2 q k) = weights V c (ix2 q k) := by
  obtain ⟨-, -, -, -, e20, e21, -⟩ := idx_facts t
  unfold iblk2
  rw [View.read_apply]
  show V c main_arg4 _ = V c main_arg4 _
  congr 1
  funext a
  apply Fin.ext
  match a with
  | ⟨0, _⟩ => show win2_2.index t 0 * 64 + 1 * q.val = q.val; rw [e20]; omega
  | ⟨1, _⟩ => show win2_2.index t 1 * 128 + 1 * k.val = k.val; rw [e21]; omega

/-- WHAT POINT `t` WRITES BACK is block `t` of the layer function of the arrays as the region finds them. -/
theorem flushed_eq (c : Dev nD) (t : Fin cfg2.N) :
    (dat2 V c).flushed 3 t = ((cfg2.win 3).blk t).view.read (Elt Ideal) (layer 50000 128 64 (feats V c) (norms V c) (weights V c)) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S64x128) hz]
  obtain ⟨e00, e01, e10, e11, e20, e21, e30, e31, ht⟩ := idx_facts t
  funext j
  obtain ⟨p, q, rfl⟩ : ∃ (p : Fin 2000) (q : Fin 64), j = ix2 p q := ⟨j 0, j 1, eq_ix2 j⟩
  have hr : 2000 * t.val + p.val < 50000 := by have := p.isLt; omega
  show k2_pay1 (iblk2 V c 0 t) (iblk2 V c 1 t) (iblk2 V c 2 t) (ix2 p q)
    = layer 50000 128 64 (feats V c) (norms V c) (weights V c) (((cfg2.win 3).blk t).view.emb (ix2 p q))
  have hemb : ((cfg2.win 3).blk t).view.emb (ix2 p q) = ix2 (⟨2000 * t.val + p.val, hr⟩ : Fin 50000) q := by
    funext a
    apply Fin.ext
    match a with
    | ⟨0, _⟩ => show win2_3.index t 0 * 2000 + 1 * p.val = 2000 * t.val + p.val; rw [e30]; omega
    | ⟨1, _⟩ => show win2_3.index t 1 * 64 + 1 * q.val = q.val; rw [e31]; omega
  rw [hemb, layer_ix2]
  refine (Pay2.pay_apply (iblk2 V c 0 t) (iblk2 V c 1 t) (iblk2 V c 2 t) p q).trans ?_
  congr 1
  refine Finset.sum_congr rfl fun k _ => ?_
  rw [feats_blk V c t p k ⟨2000 * t.val + p.val, hr⟩ rfl, norms_blk V c t p ⟨2000 * t.val + p.val, hr⟩ rfl, weights_blk V c t q k]

/-- An index of the result array is in point `t`'s block iff each coordinate is in the block's range on its axis. -/
theorem mem_blk (t : Fin cfg2.N) (i : S50000x64.Idx) :
    i ∈ ((cfg2.win 3).blk t).view.set ↔ ∀ a : Fin 2, win2_3.index t a * S2000x64.size a ≤ (i a).val ∧ (i a).val < win2_3.index t a * S2000x64.size a + S2000x64.size a := by
  show i ∈ ((View.whole main_v48).slice (win2_3.rect t)).set ↔ _
  rw [View.set_slice_whole, Rect.mem_set_unit]
  exact Iff.rfl

/-- Every one of the 25 row blocks is some point's. -/
theorem idx_onto : ∀ q0 : Fin 25, ∃ t : Fin cfg2.N, win2_3.index t = ![q0.val, 0] :=
  (by decide +kernel : ∀ q0 : Fin 25, ∃ t : Fin grid2.N, win2_3.index t = ![q0.val, 0])

/-- The written blocks tile the result: row `r` lies in the block of point `r / 2000`. -/
theorem cover (i : S50000x64.Idx) : ∃ t : Fin cfg2.N, (cfg2.win 3).flush t = true ∧ i ∈ ((cfg2.win 3).blk t).view.set := by
  have hi0 : (i 0).val < 50000 := (i 0).isLt
  have hi1 : (i 1).val < 64 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 64 ≤ (i 1).val ∧ (i 1).val < win2_3.index t (1 : Fin 2) * 64 + 64; omega

/-- THE RESULT ARRAY after the region: the layer function of the three arrays the region found. -/
theorem final (c : Dev nD) : (dat2 V c).arrAt 3 cfg2.N = layer 50000 128 64 (feats V c) (norms V c) (weights V c) :=
  (dat2 V c).arrAt_eq_of_cover 3 (layer 50000 128 64 (feats V c) (norms V c) (weights V c)) (fun t _ => flushed_eq V c t) cover

end Cert.KernelIdeal.Reg2

end
-- ==== Proof.KernelValue.lean ====
/-
  The kernel program's result, read. @main is three host stretches, each followed by a pallas_call. Walking the buffer
  contents boundary by boundary: the first stretch leaves the edge list's two rows, the normaliser column and the
  aggregation of the input features; each pallas_call leaves the layer function of its three input arrays in its result
  array and touches nothing else; each later stretch aggregates the previous call's result with the same two rows.
  Nothing writes the rows, the column or the weights after they are made, so every stretch and every call finds them
  as the first stretch left them, and the last call's result is

      layer (agg (layer (agg (layer (agg x) inv W1)) inv W2)) inv W3

  of the launch contents of the five arguments.
-/
import proofs.«127142_j53704271069553_1_alg».proof.Proof.Gen.KernelIdeal.Frame
import proofs.«127142_j53704271069553_1_alg».proof.Proof.Host
import proofs.«127142_j53704271069553_1_alg».proof.Proof.Region0
import proofs.«127142_j53704271069553_1_alg».proof.Proof.Region1
import proofs.«127142_j53704271069553_1_alg».proof.Proof.Region2
import Idealize.ShloMosaic.Lib.StableHlo.Run

set_option maxRecDepth 16384
set_option maxHeartbeats 4000000

noncomputable section

namespace Cert.KernelIdeal.KValue

open Cert.KernelIdeal Cert.KernelIdeal.Gen Cert.Sage
open Idealize.ShloMosaic Idealize.ShloMosaic.TcCoe Idealize.SL.Sem Idealize.ShloMosaic.StableHlo

variable (m : (ℓ : Loc nD τ sig) → Buf (Elt Ideal) ℓ) (ρ : Dev nD → PrngReg)

/-- The shared host values of the launch contents: the two rows of the edge list and the normaliser column. -/
abbrev src (c : Dev nD) := srcRow (F := Ideal) (m ((c : Thread nD τ).loc main_arg1))
abbrev dst (c : Dev nD) := dstRow (F := Ideal) (m ((c : Thread nD τ).loc main_arg1))
abbrev inv (c : Dev nD) := invCol (F := Ideal) (dst m c)

/-- The three layers' results as functions of the launch contents. -/
def h1 (c : Dev nD) : (⟨S50000x128, .f32⟩ : BufTy).Contents (Elt Ideal) :=
  layer 50000 128 128 (agg (m ((c : Thread nD τ).loc main_arg0)) (src m c) (dst m c)) (inv m c) (m ((c : Thread nD τ).loc main_arg2))
def h2 (c : Dev nD) : (⟨S50000x128, .f32⟩ : BufTy).Contents (Elt Ideal) :=
  layer 50000 128 128 (agg (h1 m c) (src m c) (dst m c)) (inv m c) (m ((c : Thread nD τ).loc main_arg3))
def h3 (c : Dev nD) : (⟨S50000x64, .f32⟩ : BufTy).Contents (Elt Ideal) :=
  layer 50000 128 64 (agg (h2 m c) (src m c) (dst m c)) (inv m c) (m ((c : Thread nD τ).loc main_arg4))

/-! ## After the first host stretch -/

theorem W1_src (c : Dev nD) : W1 m ρ c (Proc.devRef .tc main_v1) = src m c := by
  show StableHlo.after hostOps0 (W0 m ρ c) (Proc.devRef .tc main_v1) = _
  after_results_simp <;> rfl
theorem W1_dst (c : Dev nD) : W1 m ρ c (Proc.devRef .tc main_v3) = dst m c := by
  show StableHlo.after hostOps0 (W0 m ρ c) (Proc.devRef .tc main_v3) = _
  after_results_simp <;> rfl
theorem W1_inv (c : Dev nD) : W1 m ρ c (Proc.devRef .tc main_v12) = inv m c := by
  show StableHlo.after hostOps0 (W0 m ρ c) (Proc.devRef .tc main_v12) = _
  after_results_simp <;> rfl
theorem W1_agg (c : Dev nD) : W1 m ρ c (Proc.devRef .tc main_v23) = agg (m ((c : Thread nD τ).loc main_arg0)) (src m c) (dst m c) := by
  show StableHlo.after hostOps0 (W0 m ρ c) (Proc.devRef .tc main_v23) = _
  after_results_simp <;> rfl
theorem W1_w1 (c : Dev nD) : W1 m ρ c (Proc.devRef .tc main_arg2) = m ((c : Thread nD τ).loc main_arg2) := by
  show StableHlo.after hostOps0 (W0 m ρ c) (Proc.devRef .tc main_arg2) = _
  after_results_simp <;> rfl
theorem W1_w2 (c : Dev nD) : W1 m ρ c (Proc.devRef .tc main_arg3) = m ((c : Thread nD τ).loc main_arg3) := by
  show StableHlo.after hostOps0 (W0 m ρ c) (Proc.devRef .tc main_arg3) = _
  after_results_simp <;> rfl
theorem W1_w3 (c : Dev nD) : W1 m ρ c (Proc.devRef .tc main_arg4) = m ((c : Thread nD τ).loc main_arg4) := by
  show StableHlo.after hostOps0 (W0 m ρ c) (Proc.devRef .tc main_arg4) = _
  after_results_simp <;> rfl

/-! ## After the first pallas_call -/

theorem W2_out (c : Dev nD) : W2 m ρ c (Proc.devRef .tc main_v24) = h1 m c :=
  (W2_arr m ρ c 3).trans ((Reg0.final (V1 m ρ) c).trans (by
    show layer 50000 128 128 (W1 m ρ c (Proc.devRef .tc main_v23)) (W1 m ρ c (Proc.devRef .tc main_v12)) (W1 m ρ c (Proc.devRef .tc main_arg2)) = _
    rw [W1_agg m ρ c, W1_inv m ρ c, W1_w1 m ρ c]; rfl))
theorem W2_src (c : Dev nD) : W2 m ρ c (Proc.devRef .tc main_v1) = src m c :=
  (W2_of_ne m ρ c main_v1 (by decide)).trans (W1_src m ρ c)
theorem W2_dst (c : Dev nD) : W2 m ρ c (Proc.devRef .tc main_v3) = dst m c :=
  (W2_of_ne m ρ c main_v3 (by decide)).trans (W1_dst m ρ c)
theorem W2_inv (c : Dev nD) : W2 m ρ c (Proc.devRef .tc main_v12) = inv m c :=
  (W2_arr m ρ c 1).trans ((((dat0 (V1 m ρ) c).arrAt_in 1 rfl _).trans (A_eq0 (V1 m ρ) c 1)).trans (W1_inv m ρ c))
theorem W2_w2 (c : Dev nD) : W2 m ρ c (Proc.devRef .tc main_arg3) = m ((c : Thread nD τ).loc main_arg3) :=
  (W2_of_ne m ρ c main_arg3 (by decide)).trans (W1_w2 m ρ c)
theorem W2_w3 (c : Dev nD) : W2 m ρ c (Proc.devRef .tc main_arg4) = m ((c : Thread nD τ).loc main_arg4) :=
  (W2_of_ne m ρ c main_arg4 (by decide)).trans (W1_w3 m ρ c)

/-! ## After the second host stretch -/

theorem W3_agg (c : Dev nD) : W3 m ρ c (Proc.devRef .tc main_v35) = agg (h1 m c) (src m c) (dst m c) := by
  have e : W3 m ρ c (Proc.devRef .tc main_v35)
      = agg (W2 m ρ c (Proc.devRef .tc main_v24)) (W2 m ρ c (Proc.devRef .tc main_v1)) (W2 m ρ c (Proc.devRef .tc main_v3)) := by
    show StableHlo.after hostOps1 (W2 m ρ c) (Proc.devRef .tc main_v35) = _
    after_results_simp <;> rfl
  rw [e, W2_out m ρ c, W2_src m ρ c, W2_dst m ρ c]
theorem W3_src (c : Dev nD) : W3 m ρ c (Proc.devRef .tc main_v1) = src m c := by
  refine Eq.trans ?_ (W2_src m ρ c)
  show StableHlo.after hostOps1 (W2 m ρ c) (Proc.devRef .tc main_v1) = _
  after_results_simp <;> rfl
theorem W3_dst (c : Dev nD) : W3 m ρ c (Proc.devRef .tc main_v3) = dst m c := by
  refine Eq.trans ?_ (W2_dst m ρ c)
  show StableHlo.after hostOps1 (W2 m ρ c) (Proc.devRef .tc main_v3) = _
  after_results_simp <;> rfl
theorem W3_inv (c : Dev nD) : W3 m ρ c (Proc.devRef .tc main_v12) = inv m c := by
  refine Eq.trans ?_ (W2_inv m ρ c)
  show StableHlo.after hostOps1 (W2 m ρ c) (Proc.devRef .tc main_v12) = _
  after_results_simp <;> rfl
theorem W3_w2 (c : Dev nD) : W3 m ρ c (Proc.devRef .tc main_arg3) = m ((c : Thread nD τ).loc main_arg3) := by
  refine Eq.trans ?_ (W2_w2 m ρ c)
  show StableHlo.after hostOps1 (W2 m ρ c) (Proc.devRef .tc main_arg3) = _
  after_results_simp <;> rfl
theorem W3_w3 (c : Dev nD) : W3 m ρ c (Proc.devRef .tc main_arg4) = m ((c : Thread nD τ).loc main_arg4) := by
  refine Eq.trans ?_ (W2_w3 m ρ c)
  show StableHlo.after hostOps1 (W2 m ρ c) (Proc.devRef .tc main_arg4) = _
  after_results_simp <;> rfl

/-! ## After the second pallas_call -/

theorem W4_out (c : Dev nD) : W4 m ρ c (Proc.devRef .tc main_v36) = h2 m c :=
  (W4_arr m ρ c 3).trans ((Reg1.final (V3 m ρ) c).trans (by
    show layer 50000 128 128 (W3 m ρ c (Proc.devRef .tc main_v35)) (W3 m ρ c (Proc.devRef .tc main_v12)) (W3 m ρ c (Proc.devRef .tc main_arg3)) = _
    rw [W3_agg m ρ c, W3_inv m ρ c, W3_w2 m ρ c]; rfl))
theorem W4_src (c : Dev nD) : W4 m ρ c (Proc.devRef .tc main_v1) = src m c :=
  (W4_of_ne m ρ c main_v1 (by decide)).trans (W3_src m ρ c)
theorem W4_dst (c : Dev nD) : W4 m ρ c (Proc.devRef .tc main_v3) = dst m c :=
  (W4_of_ne m ρ c main_v3 (by decide)).trans (W3_dst m ρ c)
theorem W4_inv (c : Dev nD) : W4 m ρ c (Proc.devRef .tc main_v12) = inv m c :=
  (W4_arr m ρ c 1).trans ((((dat1 (V3 m ρ) c).arrAt_in 1 rfl _).trans (A_eq1 (V3 m ρ) c 1)).trans (W3_inv m ρ c))
theorem W4_w3 (c : Dev nD) : W4 m ρ c (Proc.devRef .tc main_arg4) = m ((c : Thread nD τ).loc main_arg4) :=
  (W4_of_ne m ρ c main_arg4 (by decide)).trans (W3_w3 m ρ c)

/-! ## After the third host stretch -/

theorem W5_agg (c : Dev nD) : W5 m ρ c (Proc.devRef .tc main_v47) = agg (h2 m c) (src m c) (dst m c) := by
  have e : W5 m ρ c (Proc.devRef .tc main_v47)
      = agg (W4 m ρ c (Proc.devRef .tc main_v36)) (W4 m ρ c (Proc.devRef .tc main_v1)) (W4 m ρ c (Proc.devRef .tc main_v3)) := by
    show StableHlo.after hostOps2 (W4 m ρ c) (Proc.devRef .tc main_v47) = _
    after_results_simp <;> rfl
  rw [e, W4_out m ρ c, W4_src m ρ c, W4_dst m ρ c]
theorem W5_inv (c : Dev nD) : W5 m ρ c (Proc.devRef .tc main_v12) = inv m c := by
  refine Eq.trans ?_ (W4_inv m ρ c)
  show StableHlo.after hostOps2 (W4 m ρ c) (Proc.devRef .tc main_v12) = _
  after_results_simp <;> rfl
theorem W5_w3 (c : Dev nD) : W5 m ρ c (Proc.devRef .tc main_arg4) = m ((c : Thread nD τ).loc main_arg4) := by
  refine Eq.trans ?_ (W4_w3 m ρ c)
  show StableHlo.after hostOps2 (W4 m ρ c) (Proc.devRef .tc main_arg4) = _
  after_results_simp <;> rfl

/-! ## After the third pallas_call -/

/-- The result buffer at the last boundary is the three layers composed. -/
theorem W6_out (c : Dev nD) : W6 m ρ c (Proc.devRef .tc main_v48) = h3 m c :=
  (W6_arr m ρ c 3).trans ((Reg2.final (V5 m ρ) c).trans (by
    show layer 50000 128 64 (W5 m ρ c (Proc.devRef .tc main_v47)) (W5 m ρ c (Proc.devRef .tc main_v12)) (W5 m ρ c (Proc.devRef .tc main_arg4)) = _
    rw [W5_agg m ρ c, W5_inv m ρ c, W5_w3 m ρ c]; rfl))

end Cert.KernelIdeal.KValue

end
-- ==== Proof.RefValue.lean ====
/-
  The reference, read: each of its three `relu ((agg ⊙ inv[:, None]) @ Wᵀ)` stages is the layer function of the stage's
  aggregated input, the normaliser column and the weight matrix, and the host operations between the stages are the shared
  aggregation. At an output index `(r, c)` the host's matrix product is the sum over `k` of the scaled aggregate at
  `(r, k)` times the transposed weight at `(k, c)`, which is the weight at `(c, k)`; the normaliser broadcast from a
  vector through a column to the matrix is the node's normaliser; jax's relu is the maximum with zero.
-/
import proofs.«127142_j53704271069553_1_alg».proof.Proof.Gen.ReferenceIdeal.Run
import proofs.«127142_j53704271069553_1_alg».proof.Proof.Gen.ReferenceIdeal.Read
import proofs.«127142_j53704271069553_1_alg».proof.Proof.Host
import proofs.«127142_j53704271069553_1_alg».proof.Proof.Layer

set_option maxRecDepth 16384

noncomputable section

namespace Cert.ReferenceIdeal.RefValue

open Cert.ReferenceIdeal Cert.ReferenceIdeal.Gen Cert.ReferenceIdeal.Read Cert.Sage
open Idealize.ShloMosaic Idealize.ShloMosaic.TcCoe Idealize.ShloMosaic.ValueIdx Idealize.SL.Sem

variable (x0 : (⟨S50000x128, .f32⟩ : BufTy).Contents (Elt Ideal)) (x1 : (⟨S2x800000, .i32⟩ : BufTy).Contents (Elt Ideal))
  (x2 x3 : (⟨S128x128, .f32⟩ : BufTy).Contents (Elt Ideal)) (x4 : (⟨S64x128, .f32⟩ : BufTy).Contents (Elt Ideal))

/-! ## The host operations between the stages are the shared functions -/

/-- The reference's normaliser vector is the shared one. -/
theorem inv_eq : val_main_v11 (F := Ideal) x1 = invDeg (dstRow x1) := rfl

/-- The first aggregation, of the input features. -/
theorem agg0_eq : val_main_v22 (F := Ideal) x0 x1 = agg x0 (srcRow x1) (dstRow x1) := rfl

/-- The second aggregation, of the first layer's result. -/
theorem agg1_eq : val_main_v39 (F := Ideal) x0 x1 x2 = agg (val_main_v28 (F := Ideal) x0 x1 x2) (srcRow x1) (dstRow x1) := rfl

/-- The third aggregation, of the second layer's result. -/
theorem agg2_eq : val_main_v56 (F := Ideal) x0 x1 x2 x3 = agg (val_main_v45 (F := Ideal) x0 x1 x2 x3) (srcRow x1) (dstRow x1) := rfl

/-- The normaliser column at row `r` is the normaliser vector at `r`. -/
theorem invCol_apply (d : (⟨S800000, .i32⟩ : BufTy).Contents (Elt Ideal)) (r : Fin 50000) (j : S50000.Idx) (hj : (j 0).val = r.val) :
    invCol d (ix2 r (0 : Fin 1)) = invDeg d j := by
  unfold invCol
  refine shapeCast_apply _ _ (ix2 r (0 : Fin 1)) j ?_
  rw [Shape.rowMajor_val_one, Shape.rowMajor_val_two]
  show (j 0).val = r.val * 1 + 0
  omega

/-! ## The three stages -/

/-- The first layer. -/
theorem layer0_eq : val_main_v28 (F := Ideal) x0 x1 x2 = layer 50000 128 128 (val_main_v22 (F := Ideal) x0 x1) (invCol (dstRow x1)) x2 := by
  funext i
  obtain ⟨r, c, rfl⟩ : ∃ (r : Fin 50000) (c : Fin 128), i = ix2 r c := ⟨i 0, i 1, eq_ix2 i⟩
  rw [layer_ix2, val_main_v28_apply, val_main_v27_apply, val_main_call0_v0_apply, val_main_call0_cst_apply, Ideal.maximumf_def,
    show (FloatOps.ofBits (F := Ideal) .f32 0x00000000#32 : Ideal .f32) = 0 from Ideal.ofBits_zero_f32]
  have hs : (∑ k : Fin 128, val_main_v25 (F := Ideal) x0 x1 (lidx_main_v27 (ix2 r c) k) * val_main_v26 (F := Ideal) x2 (ridx_main_v27 (ix2 r c) k))
      = ∑ k : Fin 128, (val_main_v22 (F := Ideal) x0 x1 (ix2 r k) * invCol (dstRow x1) (ix2 r (0 : Fin 1))) * x2 (ix2 c k) := by
    refine Finset.sum_congr rfl fun k _ => ?_
    have e1 : lidx_main_v27 (ix2 r c) k = ix2 r k := funext fun a => Fin.ext (by
      match a with
      | ⟨0, _⟩ => rfl
      | ⟨1, _⟩ => rfl)
    have e2 : idx_main_v26 (ridx_main_v27 (ix2 r c) k) = ix2 c k := funext fun a => Fin.ext (by
      match a with
      | ⟨0, _⟩ => rfl
      | ⟨1, _⟩ => rfl)
    rw [val_main_v25_apply, val_main_v24_apply, val_main_v23_apply, val_main_v26_apply, inv_eq, e1, e2,
      invCol_apply (dstRow x1) r (idx_main_v23 (idx_main_v24 (ix2 r k))) rfl]
    rfl
  rw [hs]

/-- The second layer. -/
theorem layer1_eq : val_main_v45 (F := Ideal) x0 x1 x2 x3 = layer 50000 128 128 (val_main_v39 (F := Ideal) x0 x1 x2) (invCol (dstRow x1)) x3 := by
  funext i
  obtain ⟨r, c, rfl⟩ : ∃ (r : Fin 50000) (c : Fin 128), i = ix2 r c := ⟨i 0, i 1, eq_ix2 i⟩
  rw [layer_ix2, val_main_v45_apply, val_main_v44_apply, val_main_call1_v0_apply, val_main_call1_cst_apply, Ideal.maximumf_def,
    show (FloatOps.ofBits (F := Ideal) .f32 0x00000000#32 : Ideal .f32) = 0 from Ideal.ofBits_zero_f32]
  have hs : (∑ k : Fin 128, val_main_v42 (F := Ideal) x0 x1 x2 (lidx_main_v44 (ix2 r c) k) * val_main_v43 (F := Ideal) x3 (ridx_main_v44 (ix2 r c) k))
      = ∑ k : Fin 128, (val_main_v39 (F := Ideal) x0 x1 x2 (ix2 r k) * invCol (dstRow x1) (ix2 r (0 : Fin 1))) * x3 (ix2 c k) := by
    refine Finset.sum_congr rfl fun k _ => ?_
    have e1 : lidx_main_v44 (ix2 r c) k = ix2 r k := funext fun a => Fin.ext (by
      match a with
      | ⟨0, _⟩ => rfl
      | ⟨1, _⟩ => rfl)
    have e2 : idx_main_v43 (ridx_main_v44 (ix2 r c) k) = ix2 c k := funext fun a => Fin.ext (by
      match a with
      | ⟨0, _⟩ => rfl
      | ⟨1, _⟩ => rfl)
    rw [val_main_v42_apply, val_main_v41_apply, val_main_v40_apply, val_main_v43_apply, inv_eq, e1, e2,
      invCol_apply (dstRow x1) r (idx_main_v40 (idx_main_v41 (ix2 r k))) rfl]
    rfl
  rw [hs]

/-- The third layer, onto 64 output features. -/
theorem layer2_eq : val_main_v62 (F := Ideal) x0 x1 x2 x3 x4 = layer 50000 128 64 (val_main_v56 (F := Ideal) x0 x1 x2 x3) (invCol (dstRow x1)) x4 := by
  funext i
  obtain ⟨r, c, rfl⟩ : ∃ (r : Fin 50000) (c : Fin 64), i = ix2 r c := ⟨i 0, i 1, eq_ix2 i⟩
  rw [layer_ix2, val_main_v62_apply, val_main_v61_apply, val_main_call2_v0_apply, val_main_call2_cst_apply, Ideal.maximumf_def,
    show (FloatOps.ofBits (F := Ideal) .f32 0x00000000#32 : Ideal .f32) = 0 from Ideal.ofBits_zero_f32]
  have hs : (∑ k : Fin 128, val_main_v59 (F := Ideal) x0 x1 x2 x3 (lidx_main_v61 (ix2 r c) k) * val_main_v60 (F := Ideal) x4 (ridx_main_v61 (ix2 r c) k))
      = ∑ k : Fin 128, (val_main_v56 (F := Ideal) x0 x1 x2 x3 (ix2 r k) * invCol (dstRow x1) (ix2 r (0 : Fin 1))) * x4 (ix2 c k) := by
    refine Finset.sum_congr rfl fun k _ => ?_
    have e1 : lidx_main_v61 (ix2 r c) k = ix2 r k := funext fun a => Fin.ext (by
      match a with
      | ⟨0, _⟩ => rfl
      | ⟨1, _⟩ => rfl)
    have e2 : idx_main_v60 (ridx_main_v61 (ix2 r c) k) = ix2 c k := funext fun a => Fin.ext (by
      match a with
      | ⟨0, _⟩ => rfl
      | ⟨1, _⟩ => rfl)
    rw [val_main_v59_apply, val_main_v58_apply, val_main_v57_apply, val_main_v60_apply, inv_eq, e1, e2,
      invCol_apply (dstRow x1) r (idx_main_v57 (idx_main_v58 (ix2 r k))) rfl]
    rfl
  rw [hs]

/-! ## The whole reference -/

/-- The reference's result: three layers, each over the aggregation of the one before, on the shared rows and
    normalisers. -/
theorem result_eq : val_main_v62 (F := Ideal) x0 x1 x2 x3 x4
    = layer 50000 128 64 (agg (layer 50000 128 128 (agg (layer 50000 128 128 (agg x0 (srcRow x1) (dstRow x1)) (invCol (dstRow x1)) x2)
        (srcRow x1) (dstRow x1)) (invCol (dstRow x1)) x3) (srcRow x1) (dstRow x1)) (invCol (dstRow x1)) x4 := by
  rw [layer2_eq, agg2_eq, layer1_eq, agg1_eq, layer0_eq, agg0_eq]

end Cert.ReferenceIdeal.RefValue

end
-- ==== Proof.lean ====
/-
  A three-layer GraphSAGE stack with the mean ("gcn") aggregator, relu after every layer: per layer the host aggregates
  `agg h = segment_sum (h[src], dst) + h`, and a Pallas kernel over 25 blocks of 2000 node rows computes
  `relu (((agg h) ⊙ inv) · Wᵀ)` with the product taken in bf16 on the matrix unit; the reference computes the same
  expression with jnp's matrix product and `jax.nn.relu`, `inv = 1 / (in_degree + 1)`.

  Over the extended reals the changes of float format are the identity and both matrix products are the plain sum over
  the 128 input features, so each layer of either program is the one function `layer A inv W (r, c) =
  max (∑ k, (A (r, k) · inv r) · W (c, k)) 0` (Layer.lean). The gathers, the scatter-adds and the degree count are the
  same host operations applied to the same arrays in both programs and are carried as opaque functions (Host.lean). No
  law of arithmetic beyond reading the two products as the same sum is used, so the precondition is never opened.

  The kernel program's three pallas_calls each leave `layer` of their input arrays in their result array (Region0/1/2
  over Payload0/1/2); its run names the result buffer at the last boundary (KernelRun), and the boundary contents walk
  back to the arguments (KernelValue). The reference's run is read stage by stage (RefValue). The three frames are the
  generated ones, and the ideal pass rewrote nothing, so `preserves` is trivial.
-/
import proofs.«127142_j53704271069553_1_alg».proof.Defs
import proofs.«127142_j53704271069553_1_alg».proof.Proof.Gen.Kernel
import proofs.«127142_j53704271069553_1_alg».proof.Proof.Gen.Kernel.Skeleton
import proofs.«127142_j53704271069553_1_alg».proof.Proof.Gen.Kernel.Launch
import proofs.«127142_j53704271069553_1_alg».proof.Proof.Gen.Kernel.Points
import proofs.«127142_j53704271069553_1_alg».proof.Proof.Gen.Kernel.Frame
import proofs.«127142_j53704271069553_1_alg».proof.Proof.Gen.KernelIdeal
import proofs.«127142_j53704271069553_1_alg».proof.Proof.Gen.KernelIdeal.Skeleton
import proofs.«127142_j53704271069553_1_alg».proof.Proof.Gen.KernelIdeal.Launch
import proofs.«127142_j53704271069553_1_alg».proof.Proof.Gen.KernelIdeal.Points
import proofs.«127142_j53704271069553_1_alg».proof.Proof.Gen.KernelIdeal.Frame
import proofs.«127142_j53704271069553_1_alg».proof.Proof.Gen.ReferenceIdeal
import proofs.«127142_j53704271069553_1_alg».proof.Proof.Gen.ReferenceIdeal.Run
import proofs.«127142_j53704271069553_1_alg».proof.Proof.Gen.ReferenceIdeal.Read
import proofs.«127142_j53704271069553_1_alg».proof.Proof.Gen.Pre_finite_inputs
import proofs.«127142_j53704271069553_1_alg».proof.Proof.KernelRun
import proofs.«127142_j53704271069553_1_alg».proof.Proof.KernelValue
import proofs.«127142_j53704271069553_1_alg».proof.Proof.RefValue
import Idealize.ShloMosaic.Adequacy
import Idealize.ShloMosaic.Init

noncomputable section

namespace Cert.Proof

open Idealize.ShloMosaic Idealize.SL.Sem

/-- The word-level kernel program runs and keeps its arguments. -/
theorem frame_kernel : Cert.frame_Kernel := fun m ρ _ => Cert.Kernel.Gen.frame m ρ

/-- The idealized kernel program runs and keeps its arguments. -/
theorem frame_kernelIdeal : Cert.frame_KernelIdeal := fun m ρ _ => Cert.KernelIdeal.Gen.frame m ρ

/-- The reference runs and keeps its arguments: its read-back run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the five arguments both programs end with the three layers composed: the kernel
    program's result buffer by the boundary walk, the reference's by its stages, over the same shared host functions. -/
theorem algebraic : Cert.algebraic_KernelIdeal_ReferenceIdeal := by
  intro m ρ m' ρ' _ hagree
  refine ⟨fun c => Cert.KernelIdeal.KValue.h3 m c, ?_, ?_⟩
  · exact (θ_run Cert.KernelIdeal.defs _ _).mono
      (fun r h c => ⟨(h c).1.trans (Cert.KernelIdeal.KValue.W6_out m ρ c), (h c).2⟩)
      (Cert.KernelIdeal.Named.run (F := Ideal) m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4⟩ := hagree c
    rw [Cert.ReferenceIdeal.Read.val_main_v62_eq, Cert.ReferenceIdeal.RefValue.result_eq, a0, a1, a2, a3, a4]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
